-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x204 : S_.BroadcastsInDim S4096x204 (![] : Fin 0 → Fin S4096x204.rank)
  reducesTo_S4096x204_S_d0_1 : S4096x204.ReducesTo [0, 1] S_

variable [Facts]

def fn_part1 {F : FTy → Type} [FloatOps F] (main_v13 : IVec S_ 1) (main_v16 : IVec S4096x204 1) : IVec S_ 1 :=
  let main_c_5 : IVec S_ 1 := constantI S_ 1 1#1
  let main_v17 : IVec S_ 1 := (fun x v => Host.reduce IntOp.andi x v reducesTo_S4096x204_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096 .f32) (main_arg3 : FVec F S4096x204 .f32) (main_arg4 : IVec S204 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x204 .f32 := Host.absf main_arg3
  let main_cst_4 : FVec F S_ .f32 := constant S_ .f32 0x7F800000#32
  let main_v15 : FVec F S4096x204 .f32 := broadcastInDim S4096x204 ![] bcast_S_S4096x204 main_cst_4
  let main_v16 : IVec S4096x204 1 := cmpf .olt main_v14 main_v15
  fn_part1 (F := F) main_v13 main_v16
-- ==== Kernel.lean ====
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩
abbrev S4096x1 : Shape := ⟨2, ![4096, 1]⟩
abbrev S204x1 : Shape := ⟨2, ![204, 1]⟩
abbrev S1x4096 : Shape := ⟨2, ![1, 4096]⟩
abbrev S512x1024 : Shape := ⟨2, ![512, 1024]⟩
abbrev S1x512 : Shape := ⟨2, ![1, 512]⟩
abbrev S512x512 : Shape := ⟨2, ![512, 512]⟩
abbrev S1024x512 : Shape := ⟨2, ![1024, 512]⟩

abbrev nBuf : Space → Nat
  | .hbm => 36
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x204, .f32⟩
  | .hbm, ⟨4, _⟩ => ⟨S204, .i32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S204, .i32⟩
  | .hbm, ⟨25, _⟩ => ⟨S204, .i1⟩
  | .hbm, ⟨26, _⟩ => ⟨S_, .i32⟩
  | .hbm, ⟨27, _⟩ => ⟨S204, .i32⟩
  | .hbm, ⟨28, _⟩ => ⟨S204, .i32⟩
  | .hbm, ⟨29, _⟩ => ⟨S204, .i32⟩
  | .hbm, ⟨30, _⟩ => ⟨S204x1, .i32⟩
  | .hbm, ⟨31, _⟩ => ⟨S4096x4096, .f32⟩
  | .hbm, ⟨32, _⟩ => ⟨S4096x4096, .bf16⟩
  | .hbm, ⟨33, _⟩ => ⟨S4096x4096, .bf16⟩
  | .hbm, ⟨34, _⟩ => ⟨S1x4096, .f32⟩
  | .hbm, ⟨35, _⟩ => ⟨S4096x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S204 : S_.BroadcastsInDim S204 (![] : Fin 0 → Fin S204.rank)
  bcast_S204_S204x1_0 : S204.BroadcastsInDim S204x1 (![0] : Fin 1 → Fin S204x1.rank)
  bitsLt_bf16_f32 : FTy.bits .bf16 < FTy.bits .f32
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  scatter_S4096x4096_S204x1_S4096x204_0_1_1_1_wf : ScatterDims.WF S4096x4096 S204x1 S4096x204 [0] [1] [1] 1
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .bf16 = 32 ∨ (Rect.block (s := S4096x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)

variable [Facts₀]

def scatter_S4096x4096_S204x1_S4096x204_0_1_1_1 : ScatterDims S4096x4096 S204x1 S4096x204 where
  updateWindowDims := [0]
  insertedWindowDims := [1]
  scatterDimsToOperandDims := [1]
  indexVectorDim := 1
  wf := scatter_S4096x4096_S204x1_S4096x204_0_1_1_1_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v21) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩
abbrev S4096x1 : Shape := ⟨2, ![4096, 1]⟩
abbrev S204x1 : Shape := ⟨2, ![204, 1]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x204, .f32⟩
  | .hbm, ⟨4, _⟩ => ⟨S204, .i32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S204, .i32⟩
  | .hbm, ⟨25, _⟩ => ⟨S204, .i1⟩
  | .hbm, ⟨26, _⟩ => ⟨S_, .i32⟩
  | .hbm, ⟨27, _⟩ => ⟨S204, .i32⟩
  | .hbm, ⟨28, _⟩ => ⟨S204, .i32⟩
  | .hbm, ⟨29, _⟩ => ⟨S204, .i32⟩
  | .hbm, ⟨30, _⟩ => ⟨S204x1, .i32⟩
  | .hbm, ⟨31, _⟩ => ⟨S4096x4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S204 : S_.BroadcastsInDim S204 (![] : Fin 0 → Fin S204.rank)
  bcast_S204_S204x1_0 : S204.BroadcastsInDim S204x1 (![0] : Fin 1 → Fin S204x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S4096x4096_S204x1_S4096x204_0_1_1_1_wf : ScatterDims.WF S4096x4096 S204x1 S4096x204 [0] [1] [1] 1
  dot_S4096x4096_S4096x4096_S4096x4096_1_1_0_0_n_n_wf : DotDims.WF S4096x4096 S4096x4096 S4096x4096 [1] [1] [0] [0] [] []

variable [Facts₀]

def scatter_S4096x4096_S204x1_S4096x204_0_1_1_1 : ScatterDims S4096x4096 S204x1 S4096x204 where
  updateWindowDims := [0]
  insertedWindowDims := [1]
  scatterDimsToOperandDims := [1]
  indexVectorDim := 1
  wf := scatter_S4096x4096_S204x1_S4096x204_0_1_1_1_wf
def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Pieces.lean ====
/-
  What one grid point leaves behind, as values. The kernel walks a grid (i, j, k) of 8 × 8 × 4 points; at every
  point it holds a 512 × 512 accumulator tile. At k = 0 it first stores the zero tile into the accumulator; at every
  point it adds to the accumulator the product of the point's 512 × 1024 tile of x with the transpose of the point's
  512 × 1024 tile of the quantized weight; at k = 3 it stores accumulator + bias row into the output tile. So the
  accumulator after a point is ONE function (`accumulate`) of the two input tiles and of what the accumulator held
  before (the zero tile at k = 0), and the output tile at k = 3 is `finish` of the accumulator just computed and
  the bias tile. Each lemma below reads the stores one case of the body makes back as that function.
-/
import proofs.«148219_j20675972563027_1_alg».proof.Proof.Gen.KernelIdeal.Frame
import Idealize.ShloMosaic.Lib.Pipeline.Value
import Idealize.ShloMosaic.Lib.Tactic

noncomputable section

namespace Cert.KernelIdeal.Linear

open Cert.KernelIdeal Cert.KernelIdeal.Gen
open Idealize.ShloMosaic Idealize.ShloMosaic.TcCoe Idealize.SL.Sem Idealize.ShloMosaic.Tactic

variable {F : FTy → Type} [FloatOps F]

/-- A tile is stored and loaded whole: at offset (0, 0). -/
theorem origin : (![0, 0] : Fin 2 → Nat) = fun _ => 0 := funext fun a => by fin_cases a <;> rfl

/-- The zero tile the first point of a run of four stores into the accumulator. -/
abbrev zeroTile : Vec F S512x512 .f32 := k0_pay1 (F := F)

/-- The accumulator after a point: what it held, plus the x tile times the transposed weight tile. -/
abbrev accumulate (x w : Vec F S512x1024 .bf16) (acc : Vec F S512x512 .f32) : Vec F S512x512 .f32 := k0_pay2 x w acc

/-- The output tile at the last point of a run: the accumulator plus the bias row, the row repeated down the tile. -/
abbrev finish (acc : Vec F S512x512 .f32) (b : Vec F S1x512 .f32) : Vec F S512x512 .f32 := k0_pay3 acc b

/-- A point with k = 1 or k = 2 leaves in the accumulator, which held `acc`, the accumulation onto `acc`. -/
theorem acc_mid (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x w : Vec F S512x1024 .bf16) (b : Vec F S1x512 .f32) (acc : Vec F S512x512 .f32) :
    sout0_B_0 c i arg3 harg3 arg4 harg4 arg5 harg5 arg6 harg6 arg7 harg7 hc0 hc1 x w b acc = accumulate x w acc := by
  unfold sout0_B_0
  rw [View.read_writes_eq_canon _ _ _ (scover0_B_0 c i arg3 harg3 arg4 harg4 arg5 harg5 arg6 harg6 arg7 harg7 hc0 hc1 x w b acc)]
  unfold kernelRun0_B
  dsimp only
  sl_unfold_words
  rw [View.canon_unit_zero origin]
  simp only [View.readAt_eq_ld, harg3.read_unread, harg4.read_unread, harg7.read_unread,
    View.ld_unit_zero (S := S512x1024) origin, View.ld_unit_zero (S := S512x512) origin]

/-- A point with k = 0 stores the zero tile, reads it back, and leaves the accumulation onto the zero tile: the
    accumulator's earlier contents do not enter. -/
theorem acc_first (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x w : Vec F S512x1024 .bf16) (b : Vec F S1x512 .f32) :
    sout0_A_0 c i arg3 harg3 arg4 harg4 arg5 harg5 arg6 harg6 arg7 harg7 hc0 hc1 x w b = accumulate x w zeroTile := by
  unfold sout0_A_0
  rw [View.read_writes_eq_canon _ _ _ (scover0_A_0 c i arg3 harg3 arg4 harg4 arg5 harg5 arg6 harg6 arg7 harg7 hc0 hc1 x w b)]
  unfold kernelRun0_A
  dsimp only
  sl_unfold_words
  rw [View.canon_cons_unit_zero (S := S512x512) origin, View.readCov_unit_zero (S := S512x512) _ origin]
  simp only [View.readAt_eq_ld, harg3.read_unread, harg4.read_unread,
    View.ld_unit_zero (S := S512x1024) origin, View.ld_unit_zero (S := S512x512) origin]

/-- A point with k = 3 leaves in the accumulator, which held `acc`, the accumulation onto `acc` … -/
theorem acc_last (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x w : Vec F S512x1024 .bf16) (b : Vec F S1x512 .f32) (acc : Vec F S512x512 .f32) :
    sout0_C_0 c i arg3 harg3 arg4 harg4 arg5 harg5 arg6 harg6 arg7 harg7 hc0 hc1 x w b acc = accumulate x w acc := by
  unfold sout0_C_0
  rw [View.read_writes_eq_canon _ _ _ (scover0_C_0 c i arg3 harg3 arg4 harg4 arg5 harg5 arg6 harg6 arg7 harg7 hc0 hc1 x w b acc)]
  unfold kernelRun0_C
  dsimp only
  sl_unfold_words
  rw [View.canon_unit_zero origin]
  simp only [View.readAt_eq_ld, harg3.read_unread, harg4.read_unread, harg7.read_unread,
    View.ld_unit_zero (S := S512x1024) origin, View.ld_unit_zero (S := S512x512) origin]

/-- … and in the output tile that accumulation plus the bias row: the store reads the accumulator back after the
    accumulation has been stored into it. -/
theorem out_last (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x w : Vec F S512x1024 .bf16) (b : Vec F S1x512 .f32) (acc : Vec F S512x512 .f32) :
    out0_C_3 c i arg3 harg3 arg4 harg4 arg5 harg5 arg6 harg6 arg7 harg7 hc0 hc1 x w b acc = finish (accumulate x w acc) b := by
  unfold out0_C_3
  rw [View.read_writes_eq_canon _ _ _ (cover0_C_3 c i arg3 harg3 arg4 harg4 arg5 harg5 arg6 harg6 arg7 harg7 hc0 hc1 x w b acc)]
  unfold kernelRun0_C
  dsimp only
  sl_unfold_words
  rw [View.canon_unit_zero origin]
  simp only [View.readAt_eq_ld, harg3.read_unread, harg4.read_unread, harg5.read_unread, harg7.read_unread,
    View.readCov_unit_zero (S := S512x512) _ origin,
    View.ld_unit_zero (S := S512x1024) origin, View.ld_unit_zero (S := S512x512) origin, View.ld_unit_zero (S := S1x512) origin]

end Cert.KernelIdeal.Linear

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.TileValue.lean ====
/-
  The tile functions of one grid point, read at one entry over the extended reals. A change of float format is the
  identity there and the matrix unit's product into a zero tile is the exact sum of products, so:
    the zero tile is 0 everywhere;
    the accumulation onto `acc` at (p, r) is  acc (p, r) + Σ_{k < 1024} x (p, k) · w (r, k)  — the weight tile enters
      transposed, so its ROW r meets x's row p;
    the finished tile at (p, r) is  acc (p, r) + b (0, r).
-/
import proofs.«148219_j20675972563027_1_alg».proof.Proof.Pieces
import proofs.«148219_j20675972563027_1_alg».proof.Proof.LibPlainProduct
import Idealize.ShloMosaic.Lib.ValueIdx
import Idealize.ShloMosaic.Lib.ValueLayout
import Idealize.ShloMosaic.PureOps.Ideal.Laws

noncomputable section

namespace Cert.KernelIdeal.Linear

open Cert.KernelIdeal Cert.KernelIdeal.Gen
open Idealize.ShloMosaic Idealize.ShloMosaic.ValueIdx

/-- The matrix unit multiplies a 512 × 1024 tile by a 1024 × 512 tile, contracting the 1024 axis. -/
theorem dims_plain : dot_S512x1024_S1024x512_S512x512_1_0_0_1_n_n = DotDims.plain 512 1024 512 := rfl

/-- The zero tile holds the extended real 0. -/
theorem zeroTile_apply (j : S512x512.Idx) : zeroTile (F := Ideal) j = (0 : EReal) := by
  unfold zeroTile k0_pay1
  simp only [shapeCast_self]
  show Ideal.ofBits .f32 0x00000000#32 = 0
  exact Ideal.ofBits_zero_f32

/-- The accumulation at (p, r): what was there plus the sum over the 1024 columns of x's row p times the weight
    tile's row r. -/
theorem accumulate_apply (x w : Vec Ideal S512x1024 .bf16) (acc : Vec Ideal S512x512 .f32) (p r : Fin 512) :
    accumulate (F := Ideal) x w acc (ix2 p r) = (acc (ix2 p r) : EReal) + ∑ k : Fin 1024, (x (ix2 p k) : EReal) * (w (ix2 r k) : EReal) := by
  unfold accumulate k0_pay2
  simp only [shapeCast_self]
  rw [addf_apply]
  refine congrArg (acc (ix2 p r) + ·) ?_
  rw [dims_plain]
  refine (Cert.PlainProduct.matmul_zero_apply none x (transpose S1024x512 [1, 0] w transposes_S512x1024_p1_0_S1024x512) p r).trans ?_
  refine Finset.sum_congr rfl fun k _ => ?_
  rw [transpose_ix2_apply]

/-- The finished tile at (p, r): the accumulator there plus the bias row's entry r. -/
theorem finish_apply (acc : Vec Ideal S512x512 .f32) (b : Vec Ideal S1x512 .f32) (p r : Fin 512) :
    finish (F := Ideal) acc b (ix2 p r) = (acc (ix2 p r) : EReal) + (b (ix2 (0 : Fin 1) r) : EReal) := by
  unfold finish k0_pay3
  simp only [shapeCast_self]
  rw [addf_apply, broadcastTo_1b_ab_apply]

end Cert.KernelIdeal.Linear

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.RowProducts.lean ====
/-
  Row products by natural-number coordinates. For two 4096 × 4096 arrays X and W over the extended reals, the row
  product of row a of X with row b of W is Σ_u X (a, u) · W (b, u); `rowProd X W a b n` is its partial sum over the
  first n columns. Coordinates are plain naturals (an array reads 0 outside its extent), so that a partial sum over
  1024·(s + 1) columns splits into the partial sum over 1024·s columns plus the block of columns 1024·s + k, k < 1024,
  with no bound to carry; over all 4096 columns it is the whole row product. Addition on the extended reals is
  commutative and associative, which is all the regrouping needs: no finiteness enters.
-/
import proofs.«148219_j20675972563027_1_alg».proof.Proof.LibSums
import Idealize.ShloMosaic.Lib.ValueIdx

noncomputable section

namespace Cert.BlockedLinear

open Idealize.ShloMosaic Idealize.ShloMosaic.ValueIdx
open scoped BigOperators

/-- The index set of a 4096 × 4096 array. -/
abbrev Sq : Shape := ⟨2, ![4096, 4096]⟩

/-- An array read at natural coordinates: its entry inside the extent, 0 outside. -/
def at2 (A : Sq.Idx → EReal) (a b : ℕ) : EReal :=
  if h : a < 4096 ∧ b < 4096 then A (ix2 ⟨a, h.1⟩ ⟨b, h.2⟩) else 0

/-- Inside the extent it is the entry. -/
theorem at2_of_lt (A : Sq.Idx → EReal) {a b : ℕ} (ha : a < 4096) (hb : b < 4096) :
    at2 A a b = A (ix2 ⟨a, ha⟩ ⟨b, hb⟩) := dif_pos ⟨ha, hb⟩

/-- The partial row product: row a of X against row b of W over the first n columns. -/
def rowProd (X W : Sq.Idx → EReal) (a b n : ℕ) : EReal := ∑ u ∈ Finset.range n, at2 X a u * at2 W b u

/-- Over no column it is 0. -/
theorem rowProd_zero (X W : Sq.Idx → EReal) (a b : ℕ) : rowProd X W a b (0 * 1024) = 0 := by
  simp [rowProd]

/-- One more block of 1024 columns: the partial product over s + 1 blocks is the one over s blocks plus the sum over
    the columns 1024·s + k of block s. -/
theorem rowProd_block (X W : Sq.Idx → EReal) (a b s : ℕ) :
    rowProd X W a b ((s + 1) * 1024)
      = rowProd X W a b (s * 1024) + ∑ k : Fin 1024, at2 X a (1024 * s + k.val) * at2 W b (1024 * s + k.val) := by
  unfold rowProd
  rw [Cert.Sums.sum_range_succ_mul 1024 s (fun u => at2 X a u * at2 W b u)]
  exact congrArg (_ + ·) (Finset.sum_range fun r => at2 X a (1024 * s + r) * at2 W b (1024 * s + r))

/-- Over all four blocks it is the whole row product. -/
theorem rowProd_full (X W : Sq.Idx → EReal) (a b : Fin 4096) :
    rowProd X W a.val b.val (4 * 1024) = ∑ k : Fin 4096, X (ix2 a k) * W (ix2 b k) := by
  unfold rowProd
  rw [show (4 * 1024 : ℕ) = 4096 from rfl, Finset.sum_range]
  refine Finset.sum_congr rfl fun k _ => ?_
  rw [at2_of_lt X a.isLt k.isLt, at2_of_lt W b.isLt k.isLt]

/-- A vector of 4096 entries as a one-row array. -/
abbrev asRow (b : (⟨1, ![4096]⟩ : Shape).Idx → EReal) : (⟨2, ![1, 4096]⟩ : Shape).Idx → EReal := fun j => b (ix1 (j 1))

/-- The linear layer: entry (t, o) is the row product of row t of X with row o of W, plus entry o of the bias row. -/
def linear (X W : Sq.Idx → EReal) (B : (⟨2, ![1, 4096]⟩ : Shape).Idx → EReal) : Sq.Idx → EReal :=
  fun i => (∑ k : Fin 4096, X (ix2 (i 0) k) * W (ix2 (i 1) k)) + B (ix2 (0 : Fin 1) (i 1))

theorem linear_apply (X W : Sq.Idx → EReal) (B : (⟨2, ![1, 4096]⟩ : Shape).Idx → EReal) (a b : Fin 4096) :
    linear X W B (ix2 a b) = (∑ k : Fin 4096, X (ix2 a k) * W (ix2 b k)) + B (ix2 (0 : Fin 1) b) := rfl

end Cert.BlockedLinear

end
-- ==== Proof.TileReads.lean ====
/-
  The three input arrays of the kernel's one grid, and their tiles. Point t of the 256 stands at row tile t / 32,
  column tile (t / 4) mod 8 and K-block t mod 4 (the K coordinate runs fastest). The x window's tile at t is rows
  512·(t/32) + p, columns 1024·(t mod 4) + k of its array; the weight window's tile is rows 512·((t/4) mod 8) + r, the
  same columns; the bias window's tile is columns 512·((t/4) mod 8) + r of the one bias row. Each read is stated for
  an arbitrary array first: what a window reads depends on where its tile sits, not on what the array holds.
-/
import proofs.«148219_j20675972563027_1_alg».proof.Proof.Gen.KernelIdeal.Frame
import proofs.«148219_j20675972563027_1_alg».proof.Proof.RowProducts

noncomputable section

namespace Cert.KernelIdeal.Linear

open Cert.KernelIdeal Cert.KernelIdeal.Gen
open Idealize.ShloMosaic Idealize.ShloMosaic.TcCoe Idealize.SL.Sem Idealize.ShloMosaic.ValueIdx
open Cert.BlockedLinear

theorem lt256 (t : Fin cfg0.N) : t.val < 256 := lt_of_lt_of_eq t.isLt N_0

/-- Which tile each window is on at point t: row tile t / 32, column tile (t / 4) mod 8, K-block t mod 4. -/
theorem tile_coords : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

/-- The x window's tile of an array A: entry (p, k) is A at row 512·(t/32) + p, column 1024·(t mod 4) + k. -/
theorem read_xtile (A : Vec Ideal S4096x4096 .bf16) (t : Fin cfg0.N) (p : Fin 512) (k : Fin 1024) :
    ((cfg0.win 0).blk t).view.read (Elt Ideal) A (ix2 p k)
      = at2 A (512 * (t.val / 32) + p.val) (1024 * (t.val % 4) + k.val) := by
  have ht := lt256 t
  have hp := p.isLt
  have hk := k.isLt
  have ha : 512 * (t.val / 32) + p.val < 4096 := by omega
  have hb : 1024 * (t.val % 4) + k.val < 4096 := by omega
  rw [at2_of_lt A ha hb]
  obtain ⟨e0, e1, -⟩ := tile_coords t
  show A (((cfg0.win 0).blk t).view.emb (ix2 p k)) = A _
  refine congrArg A (funext fun a => Fin.ext ?_)
  match a with
  | ⟨0, _⟩ => show win0_0.index t (0 : Fin 2) * 512 + 1 * p.val = 512 * (t.val / 32) + p.val; rw [e0]; omega
  | ⟨1, _⟩ => show win0_0.index t (1 : Fin 2) * 1024 + 1 * k.val = 1024 * (t.val % 4) + k.val; rw [e1]; omega

/-- The weight window's tile of an array A: entry (r, k) is A at row 512·((t/4) mod 8) + r, column 1024·(t mod 4) + k. -/
theorem read_wtile (A : Vec Ideal S4096x4096 .bf16) (t : Fin cfg0.N) (r : Fin 512) (k : Fin 1024) :
    ((cfg0.win 1).blk t).view.read (Elt Ideal) A (ix2 r k)
      = at2 A (512 * (t.val / 4 % 8) + r.val) (1024 * (t.val % 4) + k.val) := by
  have ht := lt256 t
  have hr := r.isLt
  have hk := k.isLt
  have ha : 512 * (t.val / 4 % 8) + r.val < 4096 := by omega
  have hb : 1024 * (t.val % 4) + k.val < 4096 := by omega
  rw [at2_of_lt A ha hb]
  obtain ⟨-, -, e0, e1, -⟩ := tile_coords t
  show A (((cfg0.win 1).blk t).view.emb (ix2 r k)) = A _
  refine congrArg A (funext fun a => Fin.ext ?_)
  match a with
  | ⟨0, _⟩ => show win0_1.index t (0 : Fin 2) * 512 + 1 * r.val = 512 * (t.val / 4 % 8) + r.val; rw [e0]; omega
  | ⟨1, _⟩ => show win0_1.index t (1 : Fin 2) * 1024 + 1 * k.val = 1024 * (t.val % 4) + k.val; rw [e1]; omega

/-- The bias window's tile of a row B: entry (0, r) is B at column 512·((t/4) mod 8) + r. -/
theorem read_btile (B : Vec Ideal S1x4096 .f32) (t : Fin cfg0.N) (r : Fin 512) :
    ((cfg0.win 2).blk t).view.read (Elt Ideal) B (ix2 (0 : Fin 1) r)
      = B (ix2 (0 : Fin 1) (⟨512 * (t.val / 4 % 8) + r.val, by have := lt256 t; have := r.isLt; omega⟩ : Fin 4096)) := by
  obtain ⟨-, -, -, -, e0, e1, -⟩ := tile_coords t
  show B (((cfg0.win 2).blk t).view.emb (ix2 (0 : Fin 1) r)) = B _
  refine congrArg B (funext fun a => Fin.ext ?_)
  match a with
  | ⟨0, _⟩ => show win0_2.index t (0 : Fin 2) * 1 + 1 * 0 = 0; rw [e0]
  | ⟨1, _⟩ => show win0_2.index t (1 : Fin 2) * 512 + 1 * r.val = 512 * (t.val / 4 % 8) + r.val; rw [e1]; omega

end Cert.KernelIdeal.Linear

end
-- ==== Proof.Accumulator.lean ====
/-
  The accumulator over the grid. Point n of the 256 stands at row tile n / 32, column tile (n / 4) mod 8 and K-block
  n mod 4 (the K coordinate runs fastest). Its x tile is rows 512·(n/32) + p, columns 1024·(n mod 4) + k of x; its
  weight tile is rows 512·((n/4) mod 8) + r, the same columns, of the quantized weight. By induction on the point,
  after point n the accumulator's entry (p, r) is the partial row product of those two rows over the first
  1024·(n mod 4 + 1) columns: a point with n mod 4 = 0 starts from the zero tile, every other point adds its block of
  1024 columns to what the point before left. At n mod 4 = 3 this is the whole row product, and the output tile there
  is that plus the bias entry: the linear layer's entry.
-/
import proofs.«148219_j20675972563027_1_alg».proof.Proof.TileValue
import proofs.«148219_j20675972563027_1_alg».proof.Proof.TileReads

noncomputable section

namespace Cert.KernelIdeal.Linear

open Cert.KernelIdeal Cert.KernelIdeal.Gen
open Idealize.ShloMosaic Idealize.ShloMosaic.TcCoe Idealize.SL.Sem Idealize.ShloMosaic.ValueIdx
open Cert.BlockedLinear

variable (m : (ℓ : Loc nD τ sig) → Buf (Elt Ideal) ℓ)

/-- The three arrays the kernel's windows read, as the region finds them: x, the quantized weight, the bias row. -/
def xs (c : Dev nD) : Vec Ideal S4096x4096 .bf16 := V m c (Pipeline.arrRef spec0 0)
def ws (c : Dev nD) : Vec Ideal S4096x4096 .bf16 := V m c (Pipeline.arrRef spec0 1)
def bs (c : Dev nD) : Vec Ideal S1x4096 .f32 := V m c (Pipeline.arrRef spec0 2)

/-- Their tiles at a point. -/
abbrev xtile (c : Dev nD) (t : Fin cfg0.N) : Vec Ideal S512x1024 .bf16 := iblk m c 0 t
abbrev wtile (c : Dev nD) (t : Fin cfg0.N) : Vec Ideal S512x1024 .bf16 := iblk m c 1 t
abbrev btile (c : Dev nD) (t : Fin cfg0.N) : Vec Ideal S1x512 .f32 := iblk m c 2 t

/-- The x tile's entry (p, k) is x at row 512·(t/32) + p, column 1024·(t mod 4) + k. -/
theorem xtile_apply (c : Dev nD) (t : Fin cfg0.N) (p : Fin 512) (k : Fin 1024) :
    xtile m c t (ix2 p k) = at2 (xs m c) (512 * (t.val / 32) + p.val) (1024 * (t.val % 4) + k.val) := by
  unfold xs
  exact read_xtile (V m c (Pipeline.arrRef spec0 0)) t p k

/-- The weight tile's entry (r, k) is the quantized weight at row 512·((t/4) mod 8) + r, column 1024·(t mod 4) + k. -/
theorem wtile_apply (c : Dev nD) (t : Fin cfg0.N) (r : Fin 512) (k : Fin 1024) :
    wtile m c t (ix2 r k) = at2 (ws m c) (512 * (t.val / 4 % 8) + r.val) (1024 * (t.val % 4) + k.val) := by
  unfold ws
  exact read_wtile (V m c (Pipeline.arrRef spec0 1)) t r k

/-- The bias tile's entry (0, r) is the bias row at column 512·((t/4) mod 8) + r. -/
theorem btile_apply (c : Dev nD) (t : Fin cfg0.N) (r : Fin 512) :
    btile m c t (ix2 (0 : Fin 1) r)
      = bs m c (ix2 (0 : Fin 1) (⟨512 * (t.val / 4 % 8) + r.val, by have := lt256 t; have := r.isLt; omega⟩ : Fin 4096)) := by
  unfold bs
  exact read_btile (V m c (Pipeline.arrRef spec0 2)) t r

/-! ## What each point leaves, over what the point before left -/

/-- A point with t mod 4 = 0 leaves the accumulation onto the zero tile. -/
theorem scratch_first (c : Dev nD) (t : Fin cfg0.N) (h0 : t.val % 4 = 0) :
    (outsAt0 m c t.val t.isLt).2 = accumulate (xtile m c t) (wtile m c t) zeroTile := by
  have h1 : ¬t.val % 4 = 3 := by omega
  rw [outsAt0_A m c t h0 h1]
  dsimp only
  exact acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xtile m c t) (wtile m c t) (btile m c t)

/-- Every other point leaves the accumulation onto what the point before left. -/
theorem scratch_next (c : Dev nD) (t : Fin cfg0.N) (h0 : ¬t.val % 4 = 0) :
    (outsAt0 m c t.val t.isLt).2
      = accumulate (xtile m c t) (wtile m c t) (outsAt0 m c (t.val - 1) (Nat.lt_of_le_of_lt (Nat.sub_le _ _) t.isLt)).2 := by
  by_cases h1 : t.val % 4 = 3
  · rw [outsAt0_C m c t h0 h1]
    dsimp only
    exact acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xtile m c t) (wtile m c t) (btile m c t) (outsAt0 m c (t.val - 1) (Nat.lt_of_le_of_lt (Nat.sub_le _ _) t.isLt)).2
  · rw [outsAt0_B m c t h0 h1]
    dsimp only
    exact acc_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xtile m c t) (wtile m c t) (btile m c t) (outsAt0 m c (t.val - 1) (Nat.lt_of_le_of_lt (Nat.sub_le _ _) t.isLt)).2

/-- A point with t mod 4 = 3 leaves in the output tile the accumulator it leaves, plus the bias row. -/
theorem out_at_last (c : Dev nD) (t : Fin cfg0.N) (h1 : t.val % 4 = 3) :
    (outsAt0 m c t.val t.isLt).1
      = finish (accumulate (xtile m c t) (wtile m c t) (outsAt0 m c (t.val - 1) (Nat.lt_of_le_of_lt (Nat.sub_le _ _) t.isLt)).2) (btile m c t) := by
  have h0 : ¬t.val % 4 = 0 := by omega
  rw [outsAt0_C m c t h0 h1]
  dsimp only
  exact out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xtile m c t) (wtile m c t) (btile m c t) (outsAt0 m c (t.val - 1) (Nat.lt_of_le_of_lt (Nat.sub_le _ _) t.isLt)).2

/-! ## The accumulator after each point -/

/-- At a point with t mod 4 = 0: the partial row product over the first block of 1024 columns. -/
theorem acc_step_first (c : Dev nD) (t : Fin cfg0.N) (h0 : t.val % 4 = 0) (p r : Fin 512) :
    (outsAt0 m c t.val t.isLt).2 (ix2 p r)
      = rowProd (xs m c) (ws m c) (512 * (t.val / 32) + p.val) (512 * (t.val / 4 % 8) + r.val) ((t.val % 4 + 1) * 1024) := by
  rw [scratch_first m c t h0, accumulate_apply, zeroTile_apply, zero_add, h0, rowProd_block, rowProd_zero, zero_add]
  refine Finset.sum_congr rfl fun k _ => ?_
  rw [xtile_apply, wtile_apply, h0]

/-- At any other point: one more block of 1024 columns on top of the point before. -/
theorem acc_step_next (c : Dev nD) (t : Fin cfg0.N) (h0 : ¬t.val % 4 = 0)
    (ih : ∀ p r : Fin 512, (outsAt0 m c (t.val - 1) (Nat.lt_of_le_of_lt (Nat.sub_le _ _) t.isLt)).2 (ix2 p r)
      = rowProd (xs m c) (ws m c) (512 * ((t.val - 1) / 32) + p.val) (512 * ((t.val - 1) / 4 % 8) + r.val) (((t.val - 1) % 4 + 1) * 1024))
    (p r : Fin 512) :
    (outsAt0 m c t.val t.isLt).2 (ix2 p r)
      = rowProd (xs m c) (ws m c) (512 * (t.val / 32) + p.val) (512 * (t.val / 4 % 8) + r.val) ((t.val % 4 + 1) * 1024) := by
  have e1 : (t.val - 1) / 32 = t.val / 32 := by omega
  have e2 : (t.val - 1) / 4 % 8 = t.val / 4 % 8 := by omega
  have e3 : (t.val - 1) % 4 + 1 = t.val % 4 := by omega
  rw [scratch_next m c t h0, accumulate_apply, ih, e1, e2, e3, rowProd_block]
  refine congrArg (_ + ·) (Finset.sum_congr rfl fun k _ => ?_)
  rw [xtile_apply, wtile_apply]

/-- After point n the accumulator's entry (p, r) is the partial row product, over the first 1024·(n mod 4 + 1)
    columns, of row 512·(n/32) + p of x with row 512·((n/4) mod 8) + r of the quantized weight. -/
theorem acc_after (c : Dev nD) : ∀ (n : ℕ) (h : n < cfg0.N) (p r : Fin 512),
    (outsAt0 m c n h).2 (ix2 p r)
      = rowProd (xs m c) (ws m c) (512 * (n / 32) + p.val) (512 * (n / 4 % 8) + r.val) ((n % 4 + 1) * 1024)
  | 0, h, p, r => acc_step_first m c ⟨0, h⟩ rfl p r
  | n + 1, h, p, r => by
    by_cases h0 : (n + 1) % 4 = 0
    · exact acc_step_first m c ⟨n + 1, h⟩ h0 p r
    · exact acc_step_next m c ⟨n + 1, h⟩ h0 (fun p r => acc_after c n (Nat.lt_of_succ_lt h) p r) p r

/-- So at a point with t mod 4 = 3 the output tile's entry (p, r) is the linear layer's entry at row 512·(t/32) + p,
    column 512·((t/4) mod 8) + r. -/
theorem out_after (c : Dev nD) (t : Fin cfg0.N) (h1 : t.val % 4 = 3) (p r : Fin 512) :
    (outsAt0 m c t.val t.isLt).1 (ix2 p r)
      = linear (xs m c) (ws m c) (bs m c)
          (ix2 (⟨512 * (t.val / 32) + p.val, by have := lt256 t; have := p.isLt; omega⟩ : Fin 4096)
               (⟨512 * (t.val / 4 % 8) + r.val, by have := lt256 t; have := r.isLt; omega⟩ : Fin 4096)) := by
  have h0 : ¬t.val % 4 = 0 := by omega
  rw [out_at_last m c t h1, finish_apply, ← scratch_next m c t h0, acc_after m c t.val t.isLt p r, h1, btile_apply,
    linear_apply]
  have ht := lt256 t
  have hp := p.isLt
  have hr := r.isLt
  exact congrArg (· + _) (rowProd_full (xs m c) (ws m c)
    (⟨512 * (t.val / 32) + p.val, by omega⟩ : Fin 4096) (⟨512 * (t.val / 4 % 8) + r.val, by omega⟩ : Fin 4096))

end Cert.KernelIdeal.Linear

end
-- ==== Proof.ResultArray.lean ====
/-
  From tiles to the array. The output window writes its tile back only at the points with t mod 4 = 3, and there the
  tile is tile (t/32, (t/4) mod 8) of the linear layer of the three input arrays (the accumulator then holds whole row
  products). Entry (a, b) of the 4096 × 4096 result lies in tile (a/512, b/512), which point 32·(a/512) + 4·(b/512) + 3
  writes: the written tiles cover the array, so after the run the result array IS the linear layer of x, the quantized
  weight and the bias row as the region found them.
-/
import proofs.«148219_j20675972563027_1_alg».proof.Proof.Accumulator
import proofs.«148219_j20675972563027_1_alg».proof.Proof.Gen.KernelIdeal.Value

noncomputable section

namespace Cert.KernelIdeal.Linear

open Cert.KernelIdeal Cert.KernelIdeal.Gen
open Idealize.ShloMosaic Idealize.ShloMosaic.TcCoe Idealize.SL.Sem Idealize.ShloMosaic.ValueIdx
open Idealize.ShloMosaic.Pipeline (Dat)
open Cert.BlockedLinear

variable (m : (ℓ : Loc nD τ sig) → Buf (Elt Ideal) ℓ) (ρ : Dev nD → PrngReg)

/-- What the result array ends holding: the linear layer of the three arrays the windows read. -/
def result (c : Dev nD) : Vec Ideal S4096x4096 .f32 := linear (xs m c) (ws m c) (bs m c)

/-- The output tile a point with t mod 4 = 3 leaves, whole: the result's tile at row tile t/32, column tile (t/4) mod 8. -/
theorem out_tile (c : Dev nD) (t : Fin cfg0.N) (h1 : t.val % 4 = 3) :
    ((outsAt0 m c t.val t.isLt).1 : Vec Ideal S512x512 .f32)
      = fun y => result m c
          (ix2 (⟨512 * (t.val / 32) + (y 0).val, by have := lt256 t; have := idx2_lt0 y; omega⟩ : Fin 4096)
               (⟨512 * (t.val / 4 % 8) + (y 1).val, by have := lt256 t; have := idx2_lt1 y; omega⟩ : Fin 4096)) := by
  funext y
  obtain ⟨p, r, rfl⟩ : ∃ (p r : Fin 512), y = ix2 p r := ⟨y 0, y 1, eq_ix2 y⟩
  exact out_after m c t h1 p r

/-- What a writing point writes back is its tile of the result. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  rw [Cert.KernelIdeal.Value.flushed3, out_tile m c t h1]
  obtain ⟨-, -, -, -, -, -, e0, e1⟩ := tile_coords t
  funext y
  show result m c (ix2 _ _) = result m c (((cfg0.win 3).blk t).view.emb y)
  refine congrArg (result m c) (funext fun a => Fin.ext ?_)
  match a with
  | ⟨0, _⟩ => show 512 * (t.val / 32) + (y 0).val = win0_3.index t (0 : Fin 2) * 512 + 1 * (y 0).val; rw [e0]; omega
  | ⟨1, _⟩ => show 512 * (t.val / 4 % 8) + (y 1).val = win0_3.index t (1 : Fin 2) * 512 + 1 * (y 1).val; rw [e1]; omega

/-- An entry of the array lies in point t's tile iff each coordinate lies in the tile's range on its axis. -/
theorem mem_tile (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v24).slice (win0_3.rect t)).set ↔ _
  rw [View.set_slice_whole, Rect.mem_set_unit]
  exact Iff.rfl

/-- Every entry (a, b) is in the tile some writing point writes: point 32·(a/512) + 4·(b/512) + 3. -/
theorem covered (i : S4096x4096.Idx) :
    ∃ t : Fin cfg0.N, (cfg0.win 3).flush t = true ∧ i ∈ ((cfg0.win 3).blk t).view.set := by
  have hi0 : (i 0).val < 4096 := idx2_lt0 i
  have hi1 : (i 1).val < 4096 := idx2_lt1 i
  have hlt : 32 * ((i 0).val / 512) + 4 * ((i 1).val / 512) + 3 < 256 := by omega
  obtain ⟨t, ht⟩ : ∃ t : Fin cfg0.N, t.val = 32 * ((i 0).val / 512) + 4 * ((i 1).val / 512) + 3 :=
    ⟨⟨_, lt_of_lt_of_eq hlt N_0.symm⟩, rfl⟩
  obtain ⟨-, -, -, -, -, -, e0, e1⟩ := tile_coords t
  refine ⟨t, (flush0_3 t).mpr (by omega), ?_⟩
  rw [mem_tile]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 512 ≤ (i 1).val ∧ (i 1).val < win0_3.index t (1 : Fin 2) * 512 + 512
    rw [e1]; omega

/-- The result array after the run. -/
theorem final (c : Dev nD) : (dats m 0 c).arrAt 3 cfg0.N = result m c :=
  (dats m 0 c).arrAt_eq_of_cover 3 (result m c) (flushed_eq m c) covered

/-- The kernel's run: it ends with the result array at the linear layer, the five arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Linear

end
-- ==== Proof.HostPrefix.lean ====
/-
  The three arrays the kernel's windows read are written by the host operations in front of the kernel: x is the
  first argument narrowed to bf16; the weight is the QUANTIZED weight narrowed to bf16; the bias row is the bias
  vector given a leading unit axis. The quantized weight: every row of the weight is centred by its mean (the row sum
  over 4096), each entry replaced by its sign times the row's mean absolute centred value, and then the columns the
  index vector names (a negative index wrapped by + 4096) are overwritten with the outlier weight's columns. Over the
  extended reals a narrowing of the float format is the identity, so the windows read the first argument, the
  quantized weight and the bias vector themselves.
-/
import proofs.«148219_j20675972563027_1_alg».proof.Proof.Accumulator
import Idealize.ShloMosaic.Lib.StableHlo.Run
import Idealize.ShloMosaic.Lib.ValueLayout

noncomputable section

namespace Cert.KernelIdeal.Linear

open Cert.KernelIdeal Cert.KernelIdeal.Gen
open Idealize.ShloMosaic Idealize.ShloMosaic.TcCoe Idealize.SL.Sem Idealize.ShloMosaic.ValueIdx Idealize.ShloMosaic.StableHlo
open Cert.BlockedLinear

section Quantize

variable {F : FTy → Type} [FloatOps F]

/-- The mean of every row of a 4096 × 4096 array, as a column: the row sum divided by 4096. -/
def rowMean (a : (⟨S4096x4096, .f32⟩ : BufTy).Contents (Elt F)) : (⟨S4096x1, .f32⟩ : BufTy).Contents (Elt F) :=
  Host.divf (broadcastInDim S4096x1 ![0] bcast_S4096_S4096x1_0 (Host.reduceAdd a (constant (F := F) S_ .f32 0x00000000#32) reducesTo_S4096x4096_S4096_d1 h_S_))
    (broadcastInDim S4096x1 ![] bcast_S_S4096x1 (constant (F := F) S_ .f32 0x45800000#32))

/-- The weight with every row centred by its mean. -/
def centred (w : (⟨S4096x4096, .f32⟩ : BufTy).Contents (Elt F)) : (⟨S4096x4096, .f32⟩ : BufTy).Contents (Elt F) :=
  subf w (broadcastInDim S4096x4096 ![0, 1] bcast_S4096x1_S4096x4096_0_1 (rowMean w))

/-- The binarized weight: the sign of the centred entry times the row's mean absolute centred value. -/
def binarized (w : (⟨S4096x4096, .f32⟩ : BufTy).Contents (Elt F)) : (⟨S4096x4096, .f32⟩ : BufTy).Contents (Elt F) :=
  mulf (Host.sign (centred w)) (broadcastInDim S4096x4096 ![0, 1] bcast_S4096x1_S4096x4096_0_1 (rowMean (Host.absf (centred w))))

/-- The column indices with a negative one wrapped around by + 4096. -/
def wrapped (ci : (⟨S204, .i32⟩ : BufTy).Contents (Elt F)) : (⟨S204, .i32⟩ : BufTy).Contents (Elt F) :=
  select (cmpi .slt ci (broadcastInDim S204 ![] bcast_S_S204 (constantI S_ 32 0#32)))
    (addi ci (broadcastInDim S204 ![] bcast_S_S204 (constantI S_ 32 4096#32))) ci

/-- The quantized weight: the binarized weight with the named columns overwritten by the outlier weight's. -/
def quantized (w : (⟨S4096x4096, .f32⟩ : BufTy).Contents (Elt F)) (ow : (⟨S4096x204, .f32⟩ : BufTy).Contents (Elt F))
    (ci : (⟨S204, .i32⟩ : BufTy).Contents (Elt F)) : (⟨S4096x4096, .f32⟩ : BufTy).Contents (Elt F) :=
  Host.scatter scatter_S4096x4096_S204x1_S4096x204_0_1_1_1 (fun _ b => b) (binarized w)
    (broadcastInDim S204x1 ![0] bcast_S204_S204x1_0 (wrapped ci)) ow

end Quantize

variable (m : (ℓ : Loc nD τ sig) → Buf (Elt Ideal) ℓ)

set_option maxHeartbeats 2000000 in
/-- The x window's array is the first argument narrowed to bf16. -/
theorem xs_eq (c : Dev nD) :
    xs m c = (truncf .bf16 (m ((c : Thread nD τ).loc main_arg0) : FVec Ideal S4096x4096 .f32) bitsLt_bf16_f32 : FVec Ideal S4096x4096 .bf16) := by
  unfold xs
  show V m c main_v21 = _
  dsimp only [V, hostOps0]
  after_results_simp <;> rfl

set_option maxHeartbeats 2000000 in
/-- The weight window's array is the quantized weight narrowed to bf16. -/
theorem ws_eq (c : Dev nD) :
    ws m c = truncf .bf16 (quantized (m ((c : Thread nD τ).loc main_arg1)) (m ((c : Thread nD τ).loc main_arg3)) (m ((c : Thread nD τ).loc main_arg4))) bitsLt_bf16_f32 := by
  unfold ws
  show V m c main_v22 = _
  dsimp only [V, hostOps0]
  after_results_simp <;> rfl

set_option maxHeartbeats 2000000 in
/-- The bias window's array is the bias vector with a leading unit axis. -/
theorem bs_eq (c : Dev nD) : bs m c = shapeCast S1x4096 (m ((c : Thread nD τ).loc main_arg2)) shapeCasts_S4096_S1x4096 := by
  unfold bs
  show V m c main_v23 = _
  dsimp only [V, hostOps0]
  after_results_simp <;> rfl

/-- Over the extended reals the windows read the first argument itself, -/
theorem xs_val (c : Dev nD) : (xs m c : Sq.Idx → EReal) = m ((c : Thread nD τ).loc main_arg0) := by
  funext i
  rw [xs_eq]
  exact truncf_apply _ _ i

/-- the quantized weight itself, -/
theorem ws_val (c : Dev nD) :
    (ws m c : Sq.Idx → EReal) = quantized (F := Ideal) (m ((c : Thread nD τ).loc main_arg1)) (m ((c : Thread nD τ).loc main_arg3)) (m ((c : Thread nD τ).loc main_arg4)) := by
  funext i
  rw [ws_eq]
  exact truncf_apply _ _ i

/-- and the bias vector as a one-row array. -/
theorem bs_val (c : Dev nD) :
    (bs m c : (⟨2, ![1, 4096]⟩ : Shape).Idx → EReal) = asRow (m ((c : Thread nD τ).loc main_arg2)) := by
  funext j
  obtain ⟨u, o, rfl⟩ : ∃ (u : Fin 1) (o : Fin 4096), j = ix2 u o := ⟨j 0, j 1, eq_ix2 j⟩
  rw [bs_eq]
  exact shapeCast_a_1a_apply _ _ u o

end Cert.KernelIdeal.Linear

end
-- ==== Proof.ReferenceValue.lean ====
/-
  The reference, read at an entry. Its last value is the host's matrix product of x with the quantized weight,
  contracting both on their second axis, plus the bias vector repeated down the rows. At entry (t, o) over the
  extended reals that is  Σ_{k < 4096} x (t, k) · wq (o, k) + bias (o): the linear layer of x, the quantized weight
  and the bias read as a one-row array.
-/
import proofs.«148219_j20675972563027_1_alg».proof.Proof.Gen.ReferenceIdeal.Read
import proofs.«148219_j20675972563027_1_alg».proof.Proof.RowProducts

noncomputable section

namespace Cert.ReferenceIdeal.Linear

open Cert.ReferenceIdeal Cert.ReferenceIdeal.Gen Cert.ReferenceIdeal.Read
open Idealize.ShloMosaic Idealize.ShloMosaic.ValueIdx
open Cert.BlockedLinear

/-- The reference's result is the linear layer of its first argument, its quantized weight and its bias. -/
theorem value_eq (x0 x1 : (⟨S4096x4096, .f32⟩ : BufTy).Contents (Elt Ideal)) (x2 : (⟨S4096, .f32⟩ : BufTy).Contents (Elt Ideal))
    (x3 : (⟨S4096x204, .f32⟩ : BufTy).Contents (Elt Ideal)) (x4 : (⟨S204, .i32⟩ : BufTy).Contents (Elt Ideal)) :
    val_main_v24 (F := Ideal) x0 x1 x2 x3 x4 = linear x0 (val_main_v20 (F := Ideal) x1 x3 x4) (asRow x2) := by
  funext i
  have el : ∀ k, lidx_main_v21 i k = ix2 (i 0) k := fun k => funext fun a => by
    match a with
    | ⟨0, _⟩ => rfl
    | ⟨1, _⟩ => rfl
  have er : ∀ k, ridx_main_v21 i k = ix2 (i 1) k := fun k => funext fun a => by
    match a with
    | ⟨0, _⟩ => rfl
    | ⟨1, _⟩ => rfl
  have eb : idx_main_v22 (idx_main_v23 i) = ix1 (i 1) := funext fun a => by
    match a with
    | ⟨0, _⟩ => rfl
  rw [val_main_v24_apply, val_main_v21_apply, val_main_v23_apply, val_main_v22_apply, eb]
  simp only [el, er]
  rfl

end Cert.ReferenceIdeal.Linear

end
-- ==== Proof.lean ====
/-
  A linear layer with a binarized weight and full-precision outlier columns:  out = x · wqᵀ + bias  over 4096 × 4096
  arrays, where wq is the weight with every row centred, replaced by sign × mean-absolute-value, and 204 named columns
  overwritten. Both programs prepare wq by the SAME host operations, word for word; they differ only in the product.

  The kernel walks a grid of 8 × 8 × 4 points. At point (i, j, k) it adds to a 512 × 512 accumulator the product of
  x's tile (i, k) (512 × 1024) with the transpose of wq's tile (j, k); the accumulator is zeroed at k = 0, and at k = 3
  the accumulator plus the bias row is written to output tile (i, j). Over the extended reals the narrowing to bf16 is
  the identity and the matrix unit's product is the exact sum of products, so after point (i, j, k) the accumulator's
  entry (p, r) is the partial row product  Σ_{u < 1024·(k+1)} x (512 i + p, u) · wq (512 j + r, u)  (induction on the
  point), at k = 3 the whole row product, and the written tiles cover the result: entry (t, o) of the kernel's result is
  Σ_{u < 4096} x (t, u) · wq (o, u) + bias (o).

  The reference is one host matrix product contracting both second axes, plus the bias repeated down the rows: the same
  sum at every entry. The two sides differ only in how the 4096 terms of each sum are grouped (four blocks of 1024 added
  one after the other onto 0, against one sum), and addition of extended reals is commutative and associative with 0
  neutral, so they agree for ALL extended-real inputs: the finiteness precondition is not used. The idealized kernel is the kernel's own
  text read over the extended reals (no operation was rewritten), so `preserves` is trivial; the three frames are the
  generated frame runs.
-/
import proofs.«148219_j20675972563027_1_alg».proof.Defs
import proofs.«148219_j20675972563027_1_alg».proof.Proof.Gen.Kernel
import proofs.«148219_j20675972563027_1_alg».proof.Proof.Gen.Kernel.Skeleton
import proofs.«148219_j20675972563027_1_alg».proof.Proof.Gen.Kernel.Launch
import proofs.«148219_j20675972563027_1_alg».proof.Proof.Gen.Kernel.Points
import proofs.«148219_j20675972563027_1_alg».proof.Proof.Gen.Kernel.Frame
import proofs.«148219_j20675972563027_1_alg».proof.Proof.Gen.KernelIdeal
import proofs.«148219_j20675972563027_1_alg».proof.Proof.Gen.KernelIdeal.Skeleton
import proofs.«148219_j20675972563027_1_alg».proof.Proof.Gen.KernelIdeal.Launch
import proofs.«148219_j20675972563027_1_alg».proof.Proof.Gen.KernelIdeal.Points
import proofs.«148219_j20675972563027_1_alg».proof.Proof.Gen.KernelIdeal.Frame
import proofs.«148219_j20675972563027_1_alg».proof.Proof.Gen.ReferenceIdeal
import proofs.«148219_j20675972563027_1_alg».proof.Proof.Gen.Pre_finite_inputs
import proofs.«148219_j20675972563027_1_alg».proof.Proof.Gen.KernelIdeal.Value
import proofs.«148219_j20675972563027_1_alg».proof.Proof.Gen.ReferenceIdeal.Run
import proofs.«148219_j20675972563027_1_alg».proof.Proof.Gen.ReferenceIdeal.Read
import proofs.«148219_j20675972563027_1_alg».proof.Proof.ResultArray
import proofs.«148219_j20675972563027_1_alg».proof.Proof.HostPrefix
import proofs.«148219_j20675972563027_1_alg».proof.Proof.ReferenceValue
import Idealize.ShloMosaic.Adequacy
import Idealize.ShloMosaic.Init

noncomputable section

namespace Cert.Proof

open Idealize.ShloMosaic Idealize.SL.Sem Cert.BlockedLinear

/-- Both programs quantize the weight by the same operations: the reference's quantized weight is the kernel's. -/
theorem quantized_same (x1 : (⟨Cert.KernelIdeal.S4096x4096, .f32⟩ : BufTy).Contents (Elt Ideal))
    (x3 : (⟨Cert.KernelIdeal.S4096x204, .f32⟩ : BufTy).Contents (Elt Ideal)) (x4 : (⟨Cert.KernelIdeal.S204, .i32⟩ : BufTy).Contents (Elt Ideal)) :
    Cert.ReferenceIdeal.Read.val_main_v20 (F := Ideal) x1 x3 x4 = Cert.KernelIdeal.Linear.quantized (F := Ideal) x1 x3 x4 := rfl

/-- The kernel's result array is the linear layer of its first argument, the quantized weight and the bias. -/
theorem kernel_result (m : (ℓ : Loc Cert.KernelIdeal.nD Cert.KernelIdeal.τ Cert.KernelIdeal.sig) → Buf (Elt Ideal) ℓ) (c : Dev Cert.KernelIdeal.nD) :
    Cert.KernelIdeal.Linear.result m c
      = linear (m ((c.tc : Thread Cert.KernelIdeal.nD Cert.KernelIdeal.τ).loc Cert.KernelIdeal.main_arg0))
          (Cert.KernelIdeal.Linear.quantized (F := Ideal) (m ((c.tc : Thread Cert.KernelIdeal.nD Cert.KernelIdeal.τ).loc Cert.KernelIdeal.main_arg1))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4)))
          (asRow (m ((c.tc : Thread Cert.KernelIdeal.nD Cert.KernelIdeal.τ).loc Cert.KernelIdeal.main_arg2))) := by
  unfold Cert.KernelIdeal.Linear.result
  rw [Cert.KernelIdeal.Linear.xs_val, Cert.KernelIdeal.Linear.ws_val, Cert.KernelIdeal.Linear.bs_val]

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the linear layer of the (agreeing) arguments. -/
theorem algebraic : Cert.algebraic_KernelIdeal_ReferenceIdeal := by
  intro m ρ m' ρ' _ hagree
  refine ⟨fun c => Cert.KernelIdeal.Linear.result m c, Cert.KernelIdeal.Linear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.Linear.value_eq, (hagree c).1, (hagree c).2.1,
    (hagree c).2.2.1, (hagree c).2.2.2.1, (hagree c).2.2.2.2, quantized_same]
  exact (kernel_result m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
